-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x32x1280 : Shape := ⟨3, ![32, 32, 1280]⟩
abbrev S2560x1280 : Shape := ⟨2, ![2560, 1280]⟩
abbrev S1280 : Shape := ⟨1, ![1280]⟩
abbrev S1280x1280 : Shape := ⟨2, ![1280, 1280]⟩
abbrev S_ : Shape := ⟨0, ![]⟩

class Facts : Prop where
  bcast_S_S32x32x1280 : S_.BroadcastsInDim S32x32x1280 (![] : Fin 0 → Fin S32x32x1280.rank)
  reducesTo_S32x32x1280_S_d0_1_2 : S32x32x1280.ReducesTo [0, 1, 2] S_
  h_S_ : 0 < S_.numel
  bcast_S_S2560x1280 : S_.BroadcastsInDim S2560x1280 (![] : Fin 0 → Fin S2560x1280.rank)
  reducesTo_S2560x1280_S_d0_1 : S2560x1280.ReducesTo [0, 1] S_
  bcast_S_S1280 : S_.BroadcastsInDim S1280 (![] : Fin 0 → Fin S1280.rank)
  reducesTo_S1280_S_d0 : S1280.ReducesTo [0] S_
  bcast_S_S1280x1280 : S_.BroadcastsInDim S1280x1280 (![] : Fin 0 → Fin S1280x1280.rank)
  reducesTo_S1280x1280_S_d0_1 : S1280x1280.ReducesTo [0, 1] S_

variable [Facts]

def fn_part1 {F : FTy → Type} [FloatOps F] (main_arg4 : FVec F S1280 .f32) (main_arg5 : FVec F S1280x1280 .f32) (main_arg6 : FVec F S1280 .f32) (main_v13 : IVec S_ 1) (main_v16 : IVec S1280x1280 1) : IVec S_ 1 :=
  let main_c_5 : IVec S_ 1 := constantI S_ 1 1#1
  let main_v17 : IVec S_ 1 := (fun x v => Host.reduce IntOp.andi x v reducesTo_S1280x1280_S_d0_1 h_S_) main_v16 main_c_5
  let main_v18 : IVec S_ 1 := andi main_v13 main_v17
  let main_v19 : FVec F S1280 .f32 := Host.absf main_arg4
  let main_cst_6 : FVec F S_ .f32 := constant S_ .f32 0x7F800000#32
  let main_v20 : FVec F S1280 .f32 := broadcastInDim S1280 ![] bcast_S_S1280 main_cst_6
  let main_v21 : IVec S1280 1 := cmpf .olt main_v19 main_v20
  let main_c_7 : IVec S_ 1 := constantI S_ 1 1#1
  let main_v22 : IVec S_ 1 := (fun x v => Host.reduce IntOp.andi x v reducesTo_S1280_S_d0 h_S_) main_v21 main_c_7
  let main_v23 : IVec S_ 1 := andi main_v18 main_v22
  let main_v24 : FVec F S1280x1280 .f32 := Host.absf main_arg5
  let main_cst_8 : FVec F S_ .f32 := constant S_ .f32 0x7F800000#32
  let main_v25 : FVec F S1280x1280 .f32 := broadcastInDim S1280x1280 ![] bcast_S_S1280x1280 main_cst_8
  let main_v26 : IVec S1280x1280 1 := cmpf .olt main_v24 main_v25
  let main_c_9 : IVec S_ 1 := constantI S_ 1 1#1
  let main_v27 : IVec S_ 1 := (fun x v => Host.reduce IntOp.andi x v reducesTo_S1280x1280_S_d0_1 h_S_) main_v26 main_c_9
  let main_v28 : IVec S_ 1 := andi main_v23 main_v27
  let main_v29 : FVec F S1280 .f32 := Host.absf main_arg6
  let main_cst_10 : FVec F S_ .f32 := constant S_ .f32 0x7F800000#32
  let main_v30 : FVec F S1280 .f32 := broadcastInDim S1280 ![] bcast_S_S1280 main_cst_10
  let main_v31 : IVec S1280 1 := cmpf .olt main_v29 main_v30
  let main_c_11 : IVec S_ 1 := constantI S_ 1 1#1
  let main_v32 : IVec S_ 1 := (fun x v => Host.reduce IntOp.andi x v reducesTo_S1280_S_d0 h_S_) main_v31 main_c_11
  let main_v33 : IVec S_ 1 := andi main_v28 main_v32
  main_v33

def fn {F : FTy → Type} [FloatOps F] (main_arg0 : FVec F S32x32x1280 .f32) (main_arg1 : FVec F S2560x1280 .f32) (main_arg2 : FVec F S1280 .f32) (main_arg3 : FVec F S1280x1280 .f32) (main_arg4 : FVec F S1280 .f32) (main_arg5 : FVec F S1280x1280 .f32) (main_arg6 : FVec F S1280 .f32) : IVec S_ 1 :=
  let main_v0 : FVec F S32x32x1280 .f32 := Host.absf main_arg0
  let main_cst : FVec F S_ .f32 := constant S_ .f32 0x7F800000#32
  let main_v1 : FVec F S32x32x1280 .f32 := broadcastInDim S32x32x1280 ![] bcast_S_S32x32x1280 main_cst
  let main_v2 : IVec S32x32x1280 1 := cmpf .olt main_v0 main_v1
  let main_c : IVec S_ 1 := constantI S_ 1 1#1
  let main_v3 : IVec S_ 1 := (fun x v => Host.reduce IntOp.andi x v reducesTo_S32x32x1280_S_d0_1_2 h_S_) main_v2 main_c
  let main_v4 : FVec F S2560x1280 .f32 := Host.absf main_arg1
  let main_cst_0 : FVec F S_ .f32 := constant S_ .f32 0x7F800000#32
  let main_v5 : FVec F S2560x1280 .f32 := broadcastInDim S2560x1280 ![] bcast_S_S2560x1280 main_cst_0
  let main_v6 : IVec S2560x1280 1 := cmpf .olt main_v4 main_v5
  let main_c_1 : IVec S_ 1 := constantI S_ 1 1#1
  let main_v7 : IVec S_ 1 := (fun x v => Host.reduce IntOp.andi x v reducesTo_S2560x1280_S_d0_1 h_S_) main_v6 main_c_1
  let main_v8 : IVec S_ 1 := andi main_v3 main_v7
  let main_v9 : FVec F S1280 .f32 := Host.absf main_arg2
  let main_cst_2 : FVec F S_ .f32 := constant S_ .f32 0x7F800000#32
  let main_v10 : FVec F S1280 .f32 := broadcastInDim S1280 ![] bcast_S_S1280 main_cst_2
  let main_v11 : IVec S1280 1 := cmpf .olt main_v9 main_v10
  let main_c_3 : IVec S_ 1 := constantI S_ 1 1#1
  let main_v12 : IVec S_ 1 := (fun x v => Host.reduce IntOp.andi x v reducesTo_S1280_S_d0 h_S_) main_v11 main_c_3
  let main_v13 : IVec S_ 1 := andi main_v8 main_v12
  let main_v14 : FVec F S1280x1280 .f32 := Host.absf main_arg3
  let main_cst_4 : FVec F S_ .f32 := constant S_ .f32 0x7F800000#32
  let main_v15 : FVec F S1280x1280 .f32 := broadcastInDim S1280x1280 ![] bcast_S_S1280x1280 main_cst_4
  let main_v16 : IVec S1280x1280 1 := cmpf .olt main_v14 main_v15
  fn_part1 (F := F) main_arg4 main_arg5 main_arg6 main_v13 main_v16
-- ==== Kernel.lean ====
abbrev S32x32x1280 : Shape := ⟨3, ![32, 32, 1280]⟩
abbrev S2560x1280 : Shape := ⟨2, ![2560, 1280]⟩
abbrev S1280 : Shape := ⟨1, ![1280]⟩
abbrev S1280x1280 : Shape := ⟨2, ![1280, 1280]⟩
abbrev S32x1x1280 : Shape := ⟨3, ![32, 1, 1280]⟩
abbrev S1x32x1280 : Shape := ⟨3, ![1, 32, 1280]⟩
abbrev S1x1x1280 : Shape := ⟨3, ![1, 1, 1280]⟩
abbrev S1024x1280 : Shape := ⟨2, ![1024, 1280]⟩
abbrev S32x1280 : Shape := ⟨2, ![32, 1280]⟩
abbrev S1x1280 : Shape := ⟨2, ![1, 1280]⟩

abbrev nBuf : Space → Nat
  | .hbm => 13
  | .vmem => 11
  | .smem => 0
  | _ => 0

abbrev bufTy : (tb : Table) → Fin (tcTables nBuf tb) → BufTy
  | .hbm, ⟨0, _⟩ => ⟨S32x32x1280, .f32⟩
  | .hbm, ⟨1, _⟩ => ⟨S2560x1280, .f32⟩
  | .hbm, ⟨2, _⟩ => ⟨S1280, .f32⟩
  | .hbm, ⟨3, _⟩ => ⟨S1280x1280, .f32⟩
  | .hbm, ⟨4, _⟩ => ⟨S1280, .f32⟩
  | .hbm, ⟨5, _⟩ => ⟨S1280x1280, .f32⟩
  | .hbm, ⟨6, _⟩ => ⟨S1280, .f32⟩
  | .hbm, ⟨7, _⟩ => ⟨S32x32x1280, .bf16⟩
  | .hbm, ⟨8, _⟩ => ⟨S2560x1280, .bf16⟩
  | .hbm, ⟨9, _⟩ => ⟨S1280x1280, .bf16⟩
  | .hbm, ⟨10, _⟩ => ⟨S1280x1280, .bf16⟩
  | .hbm, ⟨11, _⟩ => ⟨S32x1x1280, .f32⟩
  | .hbm, ⟨12, _⟩ => ⟨S32x1280, .f32⟩
  | .local _ .vmem, ⟨0, _⟩ => ⟨S1x32x1280, .bf16⟩
  | .local _ .vmem, ⟨1, _⟩ => ⟨S1x32x1280, .bf16⟩
  | .local _ .vmem, ⟨2, _⟩ => ⟨S2560x1280, .bf16⟩
  | .local _ .vmem, ⟨3, _⟩ => ⟨S1280, .f32⟩
  | .local _ .vmem, ⟨4, _⟩ => ⟨S1280x1280, .bf16⟩
  | .local _ .vmem, ⟨5, _⟩ => ⟨S1280, .f32⟩
  | .local _ .vmem, ⟨6, _⟩ => ⟨S1280x1280, .bf16⟩
  | .local _ .vmem, ⟨7, _⟩ => ⟨S1280, .f32⟩
  | .local _ .vmem, ⟨8, _⟩ => ⟨S1x1x1280, .f32⟩
  | .local _ .vmem, ⟨9, _⟩ => ⟨S1x1x1280, .f32⟩
  | .local _ .vmem, ⟨10, _⟩ => ⟨S1024x1280, .bf16⟩
  | _, _ => ⟨S32x32x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2560x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1280x1280 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1280x1280 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  inb_S1x32x1280_S1x32x1280_0_0_0 : ∀ a, (![0, 0, 0] : Fin 3 → Nat) a + S1x32x1280.size a ≤ S1x32x1280.size a
  h_S1x32x1280 : 0 < S1x32x1280.numel
  shapeCasts_S1x32x1280_S32x1280 : S1x32x1280.ShapeCasts S32x1280
  inb_S2560x1280_S1280x1280_0_0 : ∀ a, (![0, 0] : Fin 2 → Nat) a + S1280x1280.size a ≤ S2560x1280.size a
  h_S1280x1280 : 0 < S1280x1280.numel
  shapeCasts_S1280x1280_S1280x1280 : S1280x1280.ShapeCasts S1280x1280
  inb_S2560x1280_S1280x1280_1280_0 : ∀ a, (![1280, 0] : Fin 2 → Nat) a + S1280x1280.size a ≤ S2560x1280.size a
  shapeCasts_S32x1280_S1x32x1280 : S32x1280.ShapeCasts S1x32x1280
  shapeCasts_S32x1280_S32x1x1280 : S32x1280.ShapeCasts S32x1x1280
  broadcasts_S1x32x1280_S32x32x1280 : S1x32x1280.Broadcasts S32x32x1280
  broadcasts_S32x1x1280_S32x32x1280 : S32x1x1280.Broadcasts S32x32x1280
  inb_S1280_S1280_0 : ∀ a, (![0] : Fin 1 → Nat) a + S1280.size a ≤ S1280.size a
  h_S1280 : 0 < S1280.numel
  shapeCasts_S1280_S1x1x1280 : S1280.ShapeCasts S1x1x1280
  broadcasts_S1x1x1280_S32x32x1280 : S1x1x1280.Broadcasts S32x32x1280
  shapeCasts_S32x32x1280_S1024x1280 : S32x32x1280.ShapeCasts S1024x1280
  inb_S1024x1280_S1024x1280_0_0 : ∀ a, (![0, 0] : Fin 2 → Nat) a + S1024x1280.size a ≤ S1024x1280.size a
  h_S1024x1280 : 0 < S1024x1280.numel
  shapeCasts_S1024x1280_S1024x1280 : S1024x1280.ShapeCasts S1024x1280
  packedbf16_S1024x1280_S1024x1280_0_0 : (Rect.unit (s := S1024x1280) ![0, 0] S1024x1280.size inb_S1024x1280_S1024x1280_0_0).PackedRows (EltTy.packing .bf16)
  inb_S1280x1280_S1280x1280_0_0 : ∀ a, (![0, 0] : Fin 2 → Nat) a + S1280x1280.size a ≤ S1280x1280.size a
  shapeCasts_S1280_S1x1280 : S1280.ShapeCasts S1x1280
  broadcasts_S1x1280_S1024x1280 : S1x1280.Broadcasts S1024x1280
  reduces_S1024x1280_S1280 : S1024x1280.Reduces [0] S1280
  inb_S1x1x1280_S1x1x1280_0_0_0 : ∀ a, (![0, 0, 0] : Fin 3 → Nat) a + S1x1x1280.size a ≤ S1x1x1280.size a
  h_S1x1x1280 : 0 < S1x1x1280.numel
  shapeCasts_S1x1x1280_S1x1280 : S1x1x1280.ShapeCasts S1x1280
  shapeCasts_S1x1280_S1x1x1280 : S1x1280.ShapeCasts S1x1x1280
  shapeCasts_S32x1x1280_S32x1280 : S32x1x1280.ShapeCasts S32x1280
  dot_S32x1280_S1280x1280_S32x1280_1_0_0_1_n_n_wf : DotDims.WF S32x1280 S1280x1280 S32x1280 [1] [0] [0] [1] [] []
  dot_S1024x1280_S1280x1280_S1024x1280_1_0_0_1_n_n_wf : DotDims.WF S1024x1280 S1280x1280 S1024x1280 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x1280.size a ≤ S32x32x1280.size a
  hwx0_0 : ∀ i : grid0.Coords, EltTy.bits .bf16 = 32 ∨ (Rect.block (s := S32x32x1280) S1x32x1280.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2560x1280.size a ≤ S2560x1280.size a
  hwx0_1 : ∀ i : grid0.Coords, EltTy.bits .bf16 = 32 ∨ (Rect.block (s := S2560x1280) S2560x1280.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1280.size a ≤ S1280.size a
  hwx0_2 : ∀ i : grid0.Coords, EltTy.bits .f32 = 32 ∨ (Rect.block (s := S1280) S1280.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1280x1280.size a ≤ S1280x1280.size a
  hwx0_3 : ∀ i : grid0.Coords, EltTy.bits .bf16 = 32 ∨ (Rect.block (s := S1280x1280) S1280x1280.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1280.size a ≤ S1280.size a
  hwx0_4 : ∀ i : grid0.Coords, EltTy.bits .f32 = 32 ∨ (Rect.block (s := S1280) S1280.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1280x1280.size a ≤ S1280x1280.size a
  hwx0_5 : ∀ i : grid0.Coords, EltTy.bits .bf16 = 32 ∨ (Rect.block (s := S1280x1280) S1280x1280.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1280.size a ≤ S1280.size a
  hwx0_6 : ∀ i : grid0.Coords, EltTy.bits .f32 = 32 ∨ (Rect.block (s := S1280) S1280.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x1280.size a ≤ S32x1x1280.size a
  hwx0_7 : ∀ i : grid0.Coords, EltTy.bits .f32 = 32 ∨ (Rect.block (s := S32x1x1280) S1x1x1280.size (cc0_transform_7 i) (hinb0_7 i)).WholeWords (EltTy.packing .f32)

variable [Facts₀]

def dot_S32x1280_S1280x1280_S32x1280_1_0_0_1_n_n : DotDims S32x1280 S1280x1280 S32x1280 where
  lhsContracting := [1]
  rhsContracting := [0]
  lhsNonContracting := [0]
  rhsNonContracting := [1]
  lhsBatch := []
  rhsBatch := []
  wf := dot_S32x1280_S1280x1280_S32x1280_1_0_0_1_n_n_wf
def dot_S1024x1280_S1280x1280_S1024x1280_1_0_0_1_n_n : DotDims S1024x1280 S1280x1280 S1024x1280 where
  lhsContracting := [1]
  rhsContracting := [0]
  lhsNonContracting := [0]
  rhsNonContracting := [1]
  lhsBatch := []
  rhsBatch := []
  wf := dot_S1024x1280_S1280x1280_S1024x1280_1_0_0_1_n_n_wf

abbrev win0_0 : Pipeline.Window sig grid0 :=
  Pipeline.Window.ofSpec (Memref.whole main_v0) S1x32x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2560x1280.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1280.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1280x1280.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1280.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1280x1280.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1280.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x1x1280.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32x32x1280 : Shape := ⟨3, ![32, 32, 1280]⟩
abbrev S2560x1280 : Shape := ⟨2, ![2560, 1280]⟩
abbrev S1280 : Shape := ⟨1, ![1280]⟩
abbrev S1280x1280 : Shape := ⟨2, ![1280, 1280]⟩
abbrev S32x1x32x1280 : Shape := ⟨4, ![32, 1, 32, 1280]⟩
abbrev S32x32x1x1280 : Shape := ⟨4, ![32, 32, 1, 1280]⟩
abbrev S32x32x32x1280 : Shape := ⟨4, ![32, 32, 32, 1280]⟩
abbrev S1x1x1x1280 : Shape := ⟨4, ![1, 1, 1, 1280]⟩
abbrev S_ : Shape := ⟨0, ![]⟩
abbrev S32x1280 : Shape := ⟨2, ![32, 1280]⟩

abbrev nBuf : Space → Nat
  | .hbm => 38
  | .vmem => 0
  | .smem => 0
  | _ => 0

abbrev bufTy : (tb : Table) → Fin (tcTables nBuf tb) → BufTy
  | .hbm, ⟨0, _⟩ => ⟨S32x32x1280, .f32⟩
  | .hbm, ⟨1, _⟩ => ⟨S2560x1280, .f32⟩
  | .hbm, ⟨2, _⟩ => ⟨S1280, .f32⟩
  | .hbm, ⟨3, _⟩ => ⟨S1280x1280, .f32⟩
  | .hbm, ⟨4, _⟩ => ⟨S1280, .f32⟩
  | .hbm, ⟨5, _⟩ => ⟨S1280x1280, .f32⟩
  | .hbm, ⟨6, _⟩ => ⟨S1280, .f32⟩
  | .hbm, ⟨7, _⟩ => ⟨S1280x1280, .f32⟩
  | .hbm, ⟨8, _⟩ => ⟨S32x32x1280, .f32⟩
  | .hbm, ⟨9, _⟩ => ⟨S1280x1280, .f32⟩
  | .hbm, ⟨10, _⟩ => ⟨S32x32x1280, .f32⟩
  | .hbm, ⟨11, _⟩ => ⟨S32x1x32x1280, .f32⟩
  | .hbm, ⟨12, _⟩ => ⟨S32x32x1x1280, .f32⟩
  | .hbm, ⟨13, _⟩ => ⟨S32x32x32x1280, .f32⟩
  | .hbm, ⟨14, _⟩ => ⟨S32x32x32x1280, .f32⟩
  | .hbm, ⟨15, _⟩ => ⟨S32x32x32x1280, .f32⟩
  | .hbm, ⟨16, _⟩ => ⟨S1x1x1x1280, .f32⟩
  | .hbm, ⟨17, _⟩ => ⟨S32x32x32x1280, .f32⟩
  | .hbm, ⟨18, _⟩ => ⟨S32x32x32x1280, .f32⟩
  | .hbm, ⟨19, _⟩ => ⟨S_, .f32⟩
  | .hbm, ⟨20, _⟩ => ⟨S32x32x32x1280, .f32⟩
  | .hbm, ⟨21, _⟩ => ⟨S32x32x32x1280, .f32⟩
  | .hbm, ⟨22, _⟩ => ⟨S32x32x32x1280, .f32⟩
  | .hbm, ⟨23, _⟩ => ⟨S1x1x1x1280, .f32⟩
  | .hbm, ⟨24, _⟩ => ⟨S32x32x32x1280, .f32⟩
  | .hbm, ⟨25, _⟩ => ⟨S32x32x32x1280, .f32⟩
  | .hbm, ⟨26, _⟩ => ⟨S_, .f32⟩
  | .hbm, ⟨27, _⟩ => ⟨S32x32x32x1280, .f32⟩
  | .hbm, ⟨28, _⟩ => ⟨S32x32x32x1280, .f32⟩
  | .hbm, ⟨29, _⟩ => ⟨S32x32x32x1280, .f32⟩
  | .hbm, ⟨30, _⟩ => ⟨S1x1x1x1280, .f32⟩
  | .hbm, ⟨31, _⟩ => ⟨S32x32x32x1280, .f32⟩
  | .hbm, ⟨32, _⟩ => ⟨S32x32x32x1280, .f32⟩
  | .hbm, ⟨33, _⟩ => ⟨S_, .f32⟩
  | .hbm, ⟨34, _⟩ => ⟨S32x32x32x1280, .f32⟩
  | .hbm, ⟨35, _⟩ => ⟨S32x32x32x1280, .f32⟩
  | .hbm, ⟨36, _⟩ => ⟨S_, .f32⟩
  | .hbm, ⟨37, _⟩ => ⟨S32x1280, .f32⟩
  | _, _ => ⟨S32x32x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call1_cst : Ref sig .tc := ⟨.hbm, 26, rfl⟩
abbrev main_call1_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call2_cst : Ref sig .tc := ⟨.hbm, 33, rfl⟩
abbrev main_call2_v0 : Ref sig .tc := ⟨.hbm, 34, rfl⟩
abbrev main_v22 : Ref sig .tc := ⟨.hbm, 35, rfl⟩
abbrev main_cst : Ref sig .tc := ⟨.hbm, 36, rfl⟩
abbrev main_v23 : Ref sig .tc := ⟨.hbm, 37, rfl⟩

abbrev nD : Nat := 1
abbrev τ : Topo := Topo.v7x

variable {F : FTy → Type} [FloatOps F]

class Facts₀ : Prop where
  slices_S2560x1280_S1280x1280_0_0 : S2560x1280.Slices ![0, 0] S1280x1280
  slices_S2560x1280_S1280x1280_1280_0 : S2560x1280.Slices ![1280, 0] S1280x1280
  bcast_S32x32x1280_S32x1x32x1280_0_2_3 : S32x32x1280.BroadcastsInDim S32x1x32x1280 (![0, 2, 3] : Fin 3 → Fin S32x1x32x1280.rank)
  bcast_S32x32x1280_S32x32x1x1280_0_1_3 : S32x32x1280.BroadcastsInDim S32x32x1x1280 (![0, 1, 3] : Fin 3 → Fin S32x32x1x1280.rank)
  bcast_S32x1x32x1280_S32x32x32x1280_0_1_2_3 : S32x1x32x1280.BroadcastsInDim S32x32x32x1280 (![0, 1, 2, 3] : Fin 4 → Fin S32x32x32x1280.rank)
  bcast_S32x32x1x1280_S32x32x32x1280_0_1_2_3 : S32x32x1x1280.BroadcastsInDim S32x32x32x1280 (![0, 1, 2, 3] : Fin 4 → Fin S32x32x32x1280.rank)
  bcast_S1280_S1x1x1x1280_3 : S1280.BroadcastsInDim S1x1x1x1280 (![3] : Fin 1 → Fin S1x1x1x1280.rank)
  bcast_S1x1x1x1280_S32x32x32x1280_0_1_2_3 : S1x1x1x1280.BroadcastsInDim S32x32x32x1280 (![0, 1, 2, 3] : Fin 4 → Fin S32x32x32x1280.rank)
  bcast_S_S32x32x32x1280 : S_.BroadcastsInDim S32x32x32x1280 (![] : Fin 0 → Fin S32x32x32x1280.rank)
  reducesTo_S32x32x32x1280_S32x1280_d1_2 : S32x32x32x1280.ReducesTo [1, 2] S32x1280
  h_S_ : 0 < S_.numel
  dot_S32x32x1280_S1280x1280_S32x32x1280_2_0_01_1_n_n_wf : DotDims.WF S32x32x1280 S1280x1280 S32x32x1280 [2] [0] [0, 1] [1] [] []
  dot_S32x32x32x1280_S1280x1280_S32x32x32x1280_3_0_012_1_n_n_wf : DotDims.WF S32x32x32x1280 S1280x1280 S32x32x32x1280 [3] [0] [0, 1, 2] [1] [] []

variable [Facts₀]

def dot_S32x32x1280_S1280x1280_S32x32x1280_2_0_01_1_n_n : DotDims S32x32x1280 S1280x1280 S32x32x1280 where
  lhsContracting := [2]
  rhsContracting := [0]
  lhsNonContracting := [0, 1]
  rhsNonContracting := [1]
  lhsBatch := []
  rhsBatch := []
  wf := dot_S32x32x1280_S1280x1280_S32x32x1280_2_0_01_1_n_n_wf
def dot_S32x32x32x1280_S1280x1280_S32x32x32x1280_3_0_012_1_n_n : DotDims S32x32x32x1280 S1280x1280 S32x32x32x1280 where
  lhsContracting := [3]
  rhsContracting := [0]
  lhsNonContracting := [0, 1, 2]
  rhsNonContracting := [1]
  lhsBatch := []
  rhsBatch := []
  wf := dot_S32x32x32x1280_S1280x1280_S32x32x32x1280_3_0_012_1_n_n_wf

class Facts : Prop extends Facts₀ where

variable [Facts]
-- ==== Proof.KernelPiece.lean ====
/-
  What one grid point leaves in its output block, as a pure function of the blocks it loaded.

  The body stores the first hidden array into its scratch buffer, reads it back, stores the second hidden array over
  it, reads that back, and stores the column sums of the third into the output block. Each store covers its whole
  buffer, so each read-back returns exactly the array stored last, and the output block is the composition of the
  four payload functions applied to the loaded blocks: the image's 32 rows, the two halves of the first weight, and
  the remaining weights and biases.
-/
import proofs.«106280_j48962627174544_1_alg».proof.Proof.Gen.KernelIdeal.Frame
import Idealize.ShloMosaic.Lib.Pipeline.Value

set_option maxRecDepth 16384

noncomputable section

namespace Cert.KernelIdeal.PointValue

open Cert.KernelIdeal Cert.KernelIdeal.Gen
open Idealize.ShloMosaic Idealize.ShloMosaic.TcCoe Idealize.ShloMosaic.Tactic
open Idealize.SL Idealize.SL.Sem

variable {F : FTy → Type} [FloatOps F]

theorem hz1 : (![0] : Fin 1 → Nat) = fun _ => 0 := by funext a; fin_cases a; rfl
theorem hz2 : (![0, 0] : Fin 2 → Nat) = fun _ => 0 := by funext a; fin_cases a <;> rfl
theorem hz3 : (![0, 0, 0] : Fin 3 → Nat) = fun _ => 0 := by funext a; fin_cases a <;> rfl

/-- A load through the whole-buffer rectangle, after a store through it that came LAST, reads that store's payload,
    whatever was stored before. -/
theorem readCov_cons_whole {sig : RefSig} {κ : Kind} {sp : Space} {S : Shape} {e : EltTy} {Val : EltTy → Type}
    [∀ e, Nonempty (Val e)] (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-- The upper and the lower half of the first weight's staged block, as the body loads them. -/
def topHalf (x1 : Vec F S2560x1280 .bf16) : Vec F S1280x1280 .bf16 :=
  View.ld x1 (Rect.unit (s := S2560x1280) ![0, 0] S1280x1280.size Cert.KernelIdeal.Facts₀.inb_S2560x1280_S1280x1280_0_0)
def botHalf (x1 : Vec F S2560x1280 .bf16) : Vec F S1280x1280 .bf16 :=
  View.ld x1 (Rect.unit (s := S2560x1280) ![1280, 0] S1280x1280.size Cert.KernelIdeal.Facts₀.inb_S2560x1280_S1280x1280_1280_0)

/-- The output block a point leaves: the payloads composed. -/
theorem out_piece (c : Dev nD) (i : grid0.Coords) (arg1 : Memref sig .tc .vmem S1x32x1280 .bf16) (harg1 : arg1.IsWhole) (arg2 : Memref sig .tc .vmem S2560x1280 .bf16) (harg2 : arg2.IsWhole) (arg3 : Memref sig .tc .vmem S1280 .f32) (harg3 : arg3.IsWhole) (arg4 : Memref sig .tc .vmem S1280x1280 .bf16) (harg4 : arg4.IsWhole) (arg5 : Memref sig .tc .vmem S1280 .f32) (harg5 : arg5.IsWhole) (arg6 : Memref sig .tc .vmem S1280x1280 .bf16) (harg6 : arg6.IsWhole) (arg7 : Memref sig .tc .vmem S1280 .f32) (harg7 : arg7.IsWhole) (arg8 : Memref sig .tc .vmem S1x1x1280 .f32) (harg8 : arg8.IsWhole) (arg9 : Memref sig .tc .vmem S1024x1280 .bf16) (harg9 : arg9.IsWhole)
    (x0 : Vec F S1x32x1280 .bf16) (x1 : Vec F S2560x1280 .bf16) (x2 : Vec F S1280 .f32) (x3 : Vec F S1280x1280 .bf16) (x4 : Vec F S1280 .f32) (x5 : Vec F S1280x1280 .bf16) (x6 : Vec F S1280 .f32) :
    out0_A_7 c i arg1 harg1 arg2 harg2 arg3 harg3 arg4 harg4 arg5 harg5 arg6 harg6 arg7 harg7 arg8 harg8 arg9 harg9 x0 x1 x2 x3 x4 x5 x6
      = k0_pay2 (k0_pay1 (k0_pay4 (k0_pay3 x0 (topHalf x1) (botHalf x1) x2) x3 x4)) x5 x6 := by
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4 x5 x6)]
  unfold kernelRun0_A
  dsimp only
  sl_unfold_words
  rw [View.canon_unit_zero hz3]
  rw [readCov_cons_whole (S := S1024x1280) _ hz2, readCov_cons_whole (S := S1024x1280) _ hz2]
  simp only [View.readAt_eq_ld, harg1.read_unread, harg2.read_unread, harg3.read_unread, harg4.read_unread,
    harg5.read_unread, harg6.read_unread, harg7.read_unread, View.ld_unit_zero (S := S1x32x1280) hz3,
    View.ld_unit_zero (S := S1280x1280) hz2, View.ld_unit_zero (S := S1280) hz1, topHalf, botHalf]

end Cert.KernelIdeal.PointValue

end
-- ==== Proof.LibPlainDot.lean ====
/-
  A plain matrix product read at an entry.

  For the dimension numbers `⟨[1], [0], [0], [1], [], []⟩` (an M×K operand times a K×N operand, no batch axis), the
  product accumulated into a zero array has, at entry (p, q), the value Σ_k lhs (p, k) · rhs (k, q) on the extended
  reals: no rounding and no order of summation is left in it. The statement is generic in the three extents and in the
  operands' float formats (a change of format is the identity on the extended reals), so it serves every plain product
  of a kernel body; a printed dimension record with these six lists IS `DotDims.plain M K N` (its well-formedness
  proof is a proposition), so the lemma applies to it as it stands.
-/
import Idealize.ShloMosaic.PureOps.Ideal.Laws
import Idealize.ShloMosaic.Lib.ValueIdx

namespace Idealize.ShloMosaic.PlainDot

open Idealize.ShloMosaic Idealize.ShloMosaic.ValueIdx

/-- The left operand's row coordinate at output entry `i` is `i`'s row. -/
theorem lhs_row (M K N : Nat) (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The left operand's column coordinate is the contraction index. -/
theorem lhs_col (M K N : Nat) (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row coordinate is the contraction index. -/
theorem rhs_row (M K N : Nat) (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column coordinate at output entry `i` is `i`'s column. -/
theorem rhs_col (M K N : Nat) (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain M×K by K×N product into the zero array, at entry (p, q), is `Σ_k lhs (p, k) · rhs (k, q)`. -/
theorem matmul_zero_apply {φ₁ φ₂ : FTy} (M K N : Nat) (lhs : FVec Ideal ⟨2, ![M, K]⟩ φ₁) (rhs : FVec Ideal ⟨2, ![K, N]⟩ φ₂)
    (p : Fin M) (q : Fin N) :
    FloatOps.matmul (DotDims.plain M K N) none lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.Spec.lean ====
/-
  What both programs compute, as one function of the argument arrays.

  For an image b with boxes x_0 … x_31 (rows of length 1280), the first layer's weight split into an upper half
  Wt and a lower half Wb (1280 rows each), the pair (p, q) gets the hidden row

      pre p q h = max (Σ_c x_q c · Wt c h + Σ_c x_p c · Wb c h + b1 h) 0,

  two further layers u ↦ max (Σ_h u h · W h k + b k) 0 are applied to that row, and the image's result at column k is
  the sum of the last row's entry k over all 32 · 32 pairs. Everything is on the extended reals; no law beyond
  re-indexing a finite sum is used anywhere, so nothing here asks the entries to be finite.
-/
import Idealize.ShloMosaic.Lib.ValueIdx

noncomputable section

namespace Cert.Spec

open Idealize.ShloMosaic Idealize.ShloMosaic.ValueIdx

/-- One half of the first layer on box `q`: `Σ_c X q c · W c h`. -/
def proj (X : Fin 32 → Fin 1280 → EReal) (W : Fin 1280 → Fin 1280 → EReal) (q : Fin 32) (h : Fin 1280) : EReal :=
  ∑ c : Fin 1280, X q c * W c h

/-- The first hidden row of the pair (p, q): box q through the upper half, box p through the lower half, the bias,
    clipped below at zero. -/
def pre (X : Fin 32 → Fin 1280 → EReal) (Wt Wb : Fin 1280 → Fin 1280 → EReal) (b1 : Fin 1280 → EReal)
    (p q : Fin 32) (h : Fin 1280) : EReal :=
  max (proj X Wt q h + proj X Wb p h + b1 h) 0

/-- One further layer on a row `u`: `max (Σ_h u h · W h k + b k) 0`. -/
def layer (u : Fin 1280 → EReal) (W : Fin 1280 → Fin 1280 → EReal) (b : Fin 1280 → EReal) (k : Fin 1280) : EReal :=
  max ((∑ h : Fin 1280, u h * W h k) + b k) 0

/-- The last hidden row of the pair (p, q). -/
def pairOut (X : Fin 32 → Fin 1280 → EReal) (Wt Wb : Fin 1280 → Fin 1280 → EReal) (b1 : Fin 1280 → EReal)
    (W2 : Fin 1280 → Fin 1280 → EReal) (b2 : Fin 1280 → EReal) (W3 : Fin 1280 → Fin 1280 → EReal) (b3 : Fin 1280 → EReal)
    (p q : Fin 32) (k : Fin 1280) : EReal :=
  layer (layer (pre X Wt Wb b1 p q) W2 b2) W3 b3 k

/-- The image's result at column k: the sum over all pairs. -/
def imageOut (X : Fin 32 → Fin 1280 → EReal) (Wt Wb : Fin 1280 → Fin 1280 → EReal) (b1 : Fin 1280 → EReal)
    (W2 : Fin 1280 → Fin 1280 → EReal) (b2 : Fin 1280 → EReal) (W3 : Fin 1280 → Fin 1280 → EReal) (b3 : Fin 1280 → EReal)
    (k : Fin 1280) : EReal :=
  ∑ p : Fin 32, ∑ q : Fin 32, pairOut X Wt Wb b1 W2 b2 W3 b3 p q k

/-- Row `c` of the upper half of a 2560-row matrix, and of its lower half. -/
abbrev topRow (c : Fin 1280) : Fin 2560 := ⟨c.val, by have := c.isLt; omega⟩
abbrev botRow (c : Fin 1280) : Fin 2560 := ⟨1280 + c.val, by have := c.isLt; omega⟩

/-- The result array [32, 1280] as a function of the seven argument arrays. -/
def result (roi : (⟨3, ![32, 32, 1280]⟩ : Shape).Idx → EReal) (W1 : (⟨2, ![2560, 1280]⟩ : Shape).Idx → EReal)
    (b1 : (⟨1, ![1280]⟩ : Shape).Idx → EReal) (W2 : (⟨2, ![1280, 1280]⟩ : Shape).Idx → EReal)
    (b2 : (⟨1, ![1280]⟩ : Shape).Idx → EReal) (W3 : (⟨2, ![1280, 1280]⟩ : Shape).Idx → EReal)
    (b3 : (⟨1, ![1280]⟩ : Shape).Idx → EReal) : (⟨2, ![32, 1280]⟩ : Shape).Idx → EReal :=
  fun j => imageOut (fun q c => roi (ix3 (j 0) q c)) (fun c h => W1 (ix2 (topRow c) h)) (fun c h => W1 (ix2 (botRow c) h))
    (fun h => b1 (ix1 h)) (fun h k => W2 (ix2 h k)) (fun h => b2 (ix1 h)) (fun h k => W3 (ix2 h k)) (fun k => b3 (ix1 k)) (j 1)

/-- Row r of the flattened 1024-row pair array is the pair (r / 32, r % 32). -/
abbrev rowP (r : Fin 1024) : Fin 32 := ⟨r.val / 32, by have := r.isLt; omega⟩
abbrev rowQ (r : Fin 1024) : Fin 32 := ⟨r.val % 32, by omega⟩

/-- A sum over the 1024 flattened rows is the double sum over the pairs. -/
theorem sum_rows {M : Type} [AddCommMonoid M] (f : Fin 32 → Fin 32 → M) :
    ∑ r : Fin 1024, f (rowP r) (rowQ r) = ∑ p : Fin 32, ∑ q : Fin 32, f p q := by
  rw [← Fintype.sum_prod_type']
  refine Fintype.sum_equiv (finProdFinEquiv (m := 32) (n := 32)).symm _ _ fun r => ?_
  show f (rowP r) (rowQ r) = f (r.divNat (m := 32) (n := 32)) (r.modNat (m := 32) (n := 32))
  rfl

end Cert.Spec

end
-- ==== Proof.KernelPoint.lean ====
/-
  The body's four payloads read at an entry, on the extended reals.

  The first payload builds, for the flattened pair row r = 32·p + q, the hidden row
  max (x_q·Wt + x_p·Wb + b1) 0: two 32 × 1280 products of the image's rows with the two halves of the first weight,
  one spread along the pair axis p and the other along q, the bias spread over both, the clip at zero, and the
  [32, 32, 1280] array flattened to [1024, 1280] (row r is the pair (r / 32, r % 32)). The second and the fourth
  payload are one further layer each on every row; the fourth then sums its 1024 rows column by column. A change of
  float format is the identity here, and a product into the zero array is the plain sum over the shared axis.
-/
import proofs.«106280_j48962627174544_1_alg».proof.Proof.Gen.KernelIdeal.Skeleton
import proofs.«106280_j48962627174544_1_alg».proof.Proof.LibPlainDot
import proofs.«106280_j48962627174544_1_alg».proof.Proof.Spec
import Idealize.ShloMosaic.Lib.Pipeline.Value
import Idealize.ShloMosaic.Lib.ValueIdx
import Idealize.ShloMosaic.PureOps.Ideal.Laws

noncomputable section

namespace Cert.KernelIdeal.PointMath

open Cert.KernelIdeal Cert.KernelIdeal.Gen
open Idealize.ShloMosaic Idealize.ShloMosaic.ValueIdx

variable {α : Type}

/-! ## Layout steps read at an entry -/

/-- The image's block [1, 32, 1280] viewed as its 32 rows. -/
theorem rows_of_block_apply (x : S1x32x1280.Idx → α) (h : S1x32x1280.ShapeCasts S32x1280) (q : Fin 32) (c : Fin 1280) :
    shapeCast S32x1280 x h (ix2 q c) = x (ix3 (0 : Fin 1) q c) :=
  shapeCast_apply x h _ _ (by
    rw [Shape.rowMajor_val_three, Shape.rowMajor_val_two]
    show ((0 : Nat) * 32 + q.val) * 1280 + c.val = q.val * 1280 + c.val
    omega)

/-- A [32, 1280] array placed under a leading unit axis. -/
theorem under_unit_apply (x : S32x1280.Idx → α) (h : S32x1280.ShapeCasts S1x32x1280) (q : Fin 32) (c : Fin 1280) :
    shapeCast S1x32x1280 x h (ix3 (0 : Fin 1) q c) = x (ix2 q c) :=
  shapeCast_apply x h _ _ (by
    rw [Shape.rowMajor_val_two, Shape.rowMajor_val_three]
    show q.val * 1280 + c.val = ((0 : Nat) * 32 + q.val) * 1280 + c.val
    omega)

/-- A [32, 1280] array with a unit axis put in the middle. -/
theorem mid_unit_apply (x : S32x1280.Idx → α) (h : S32x1280.ShapeCasts S32x1x1280) (p : Fin 32) (c : Fin 1280) :
    shapeCast S32x1x1280 x h (ix3 p (0 : Fin 1) c) = x (ix2 p c) :=
  shapeCast_apply x h _ _ (by
    rw [Shape.rowMajor_val_two, Shape.rowMajor_val_three]
    show p.val * 1280 + c.val = (p.val * 1 + (0 : Nat)) * 1280 + c.val
    omega)

/-- A length-1280 vector under two unit axes. -/
theorem under_units_apply (x : S1280.Idx → α) (h : S1280.ShapeCasts S1x1x1280) (c : Fin 1280) :
    shapeCast S1x1x1280 x h (ix3 (0 : Fin 1) (0 : Fin 1) c) = x (ix1 c) :=
  shapeCast_apply x h _ _ (by
    rw [Shape.rowMajor_val_one, Shape.rowMajor_val_three]
    show c.val = ((0 : Nat) * 1 + (0 : Nat)) * 1280 + c.val
    omega)

/-- A length-1280 vector as one row. -/
theorem as_row_apply (x : S1280.Idx → α) (h : S1280.ShapeCasts S1x1280) (c : Fin 1280) :
    shapeCast S1x1280 x h (ix2 (0 : Fin 1) c) = x (ix1 c) :=
  shapeCast_apply x h _ _ (by
    rw [Shape.rowMajor_val_one, Shape.rowMajor_val_two]
    show c.val = (0 : Nat) * 1280 + c.val
    omega)

/-- One row under a further unit axis. -/
theorem row_under_unit_apply (x : S1x1280.Idx → α) (h : S1x1280.ShapeCasts S1x1x1280) (c : Fin 1280) :
    shapeCast S1x1x1280 x h (ix3 (0 : Fin 1) (0 : Fin 1) c) = x (ix2 (0 : Fin 1) c) :=
  shapeCast_apply x h _ _ (by
    rw [Shape.rowMajor_val_two, Shape.rowMajor_val_three]
    show (0 : Nat) * 1280 + c.val = ((0 : Nat) * 1 + (0 : Nat)) * 1280 + c.val
    omega)

/-- The [32, 32, 1280] pair array flattened: row r is the pair (r / 32, r % 32). -/
theorem flat_rows_apply (x : S32x32x1280.Idx → α) (h : S32x32x1280.ShapeCasts S1024x1280) (r : Fin 1024) (c : Fin 1280) :
    shapeCast S1024x1280 x h (ix2 r c) = x (ix3 (Spec.rowP r) (Spec.rowQ r) c) :=
  shapeCast_apply x h _ _ (by
    rw [Shape.rowMajor_val_three, Shape.rowMajor_val_two]
    show (r.val / 32 * 32 + r.val % 32) * 1280 + c.val = r.val * 1280 + c.val
    omega)

/-- Spread along the first pair axis: entry (p, q, c) is the operand's (q, c). -/
theorem spread_p_apply (v : S1x32x1280.Idx → α) (h : S1x32x1280.Broadcasts S32x32x1280) (p q : Fin 32) (c : Fin 1280) :
    broadcastTo S32x32x1280 v h (ix3 p q c) = v (ix3 (0 : Fin 1) q c) :=
  broadcastTo_apply v h _ _ fun a => match a with
    | ⟨0, _⟩ => rfl
    | ⟨1, _⟩ => rfl
    | ⟨2, _⟩ => rfl

/-- Spread along the second pair axis: entry (p, q, c) is the operand's (p, c). -/
theorem spread_q_apply (v : S32x1x1280.Idx → α) (h : S32x1x1280.Broadcasts S32x32x1280) (p q : Fin 32) (c : Fin 1280) :
    broadcastTo S32x32x1280 v h (ix3 p q c) = v (ix3 p (0 : Fin 1) c) :=
  broadcastTo_apply v h _ _ fun a => match a with
    | ⟨0, _⟩ => rfl
    | ⟨1, _⟩ => rfl
    | ⟨2, _⟩ => rfl

/-- Spread over both pair axes. -/
theorem spread_pq_apply (v : S1x1x1280.Idx → α) (h : S1x1x1280.Broadcasts S32x32x1280) (p q : Fin 32) (c : Fin 1280) :
    broadcastTo S32x32x1280 v h (ix3 p q c) = v (ix3 (0 : Fin 1) (0 : Fin 1) c) :=
  broadcastTo_apply v h _ _ fun a => match a with
    | ⟨0, _⟩ => rfl
    | ⟨1, _⟩ => rfl
    | ⟨2, _⟩ => rfl

/-- One row spread down 1024 rows. -/
theorem spread_rows_apply (v : S1x1280.Idx → α) (h : S1x1280.Broadcasts S1024x1280) (r : Fin 1024) (c : Fin 1280) :
    broadcastTo S1024x1280 v h (ix2 r c) = v (ix2 (0 : Fin 1) c) :=
  broadcastTo_apply v h _ _ fun a => match a with
    | ⟨0, _⟩ => rfl
    | ⟨1, _⟩ => rfl

/-! ## Arithmetic steps read at an entry -/

/-- The clip at zero: the larger of the entry and 0. -/
theorem relu_apply {S : Shape} (a : FVec Ideal S .f32) (i : S.Idx) :
    maximumf a (broadcast S (Scalar.ofBits (F := Ideal) .f32 0x00000000#32)) i = max (a i) 0 := by
  show max (a i) (Ideal.ofBits .f32 0x00000000#32) = _
  rw [Ideal.ofBits_zero_f32]

/-- The 32 × 1280 by 1280 × 1280 product into the zero array, at (q, h). -/
theorem proj_apply (lhs : FVec Ideal S32x1280 .bf16) (rhs : FVec Ideal S1280x1280 .bf16) (q : Fin 32) (h : Fin 1280) :
    matmul dot_S32x1280_S1280x1280_S32x1280_1_0_0_1_n_n none lhs rhs (constant S32x1280 .f32 0x00000000#32) (ix2 q h)
      = ∑ c : Fin 1280, lhs (ix2 q c) * rhs (ix2 c h) :=
  PlainDot.matmul_zero_apply 32 1280 1280 lhs rhs q h

/-- The 1024 × 1280 by 1280 × 1280 product into the zero array, at (r, k). -/
theorem rows_dot_apply (lhs : FVec Ideal S1024x1280 .bf16) (rhs : FVec Ideal S1280x1280 .bf16) (r : Fin 1024) (k : Fin 1280) :
    matmul dot_S1024x1280_S1280x1280_S1024x1280_1_0_0_1_n_n none lhs rhs (constant S1024x1280 .f32 0x00000000#32) (ix2 r k)
      = ∑ h : Fin 1280, lhs (ix2 r h) * rhs (ix2 h k) :=
  PlainDot.matmul_zero_apply 1024 1280 1280 lhs rhs r k

/-- The sum of a [1024, 1280] array down its rows, started from the additive neutral word, at column k. -/
theorem colSum_apply (src : FVec Ideal S1024x1280 .f32)
    (h : S1024x1280.Reduces [0] S1280) (hφ : FKind.Formats .f32)
    (hacc : (0x00000000#32 : BitVec 32) = FKind.add.neutral .f32 hφ) (k : Fin 1280) :
    multiReduction .add [0] S1280 src 0x00000000#32 h hφ hacc (ix1 k) = ∑ r : Fin 1024, src (ix2 r k) := by
  refine (Ideal.multiReduction_add_single src 0x00000000#32 h hφ hacc (ix1 k)).trans ?_
  refine Finset.sum_congr rfl fun r _ => congrArg src ?_
  funext ax
  apply Fin.ext
  match ax with
  | ⟨0, _⟩ => rfl
  | ⟨1, _⟩ => rfl

/-! ## The payloads -/

/-- The first hidden array at row r, column h. -/
theorem pay3_apply (x0 : FVec Ideal S1x32x1280 .bf16) (wt wb : FVec Ideal S1280x1280 .bf16) (b1 : FVec Ideal S1280 .f32)
    (r : Fin 1024) (h : Fin 1280) :
    k0_pay3 (F := Ideal) x0 wt wb b1 (ix2 r h)
      = Spec.pre (fun q c => x0 (ix3 (0 : Fin 1) q c)) (fun c h => wt (ix2 c h)) (fun c h => wb (ix2 c h))
          (fun h => b1 (ix1 h)) (Spec.rowP r) (Spec.rowQ r) h := by
  unfold k0_pay3 Spec.pre Spec.proj
  dsimp only
  simp only [shapeCast_self, flat_rows_apply, truncf_apply, relu_apply, addf_apply, spread_p_apply, spread_q_apply,
    spread_pq_apply, under_unit_apply, mid_unit_apply, under_units_apply, proj_apply, rows_of_block_apply]

/-- One further layer (the second payload's form): at row r, column k. -/
theorem pay4_apply (u : FVec Ideal S1024x1280 .bf16) (W : FVec Ideal S1280x1280 .bf16) (b : FVec Ideal S1280 .f32)
    (r : Fin 1024) (k : Fin 1280) :
    k0_pay4 (F := Ideal) u W b (ix2 r k)
      = Spec.layer (fun h => u (ix2 r h)) (fun h k => W (ix2 h k)) (fun k => b (ix1 k)) k := by
  unfold k0_pay4 Spec.layer
  dsimp only
  simp only [shapeCast_self, truncf_apply, relu_apply, addf_apply, rows_dot_apply, spread_rows_apply, as_row_apply]

/-- The last layer summed down the 1024 rows, at column k. -/
theorem pay2_apply (u : FVec Ideal S1024x1280 .bf16) (W : FVec Ideal S1280x1280 .bf16) (b : FVec Ideal S1280 .f32)
    (k : Fin 1280) :
    k0_pay2 (F := Ideal) u W b (ix3 (0 : Fin 1) (0 : Fin 1) k)
      = ∑ r : Fin 1024, Spec.layer (fun h => u (ix2 r h)) (fun h k => W (ix2 h k)) (fun k => b (ix1 k)) k := by
  unfold k0_pay2 Spec.layer
  dsimp only
  refine (row_under_unit_apply _ _ k).trans ?_
  refine (as_row_apply _ _ k).trans ?_
  refine (colSum_apply _ _ _ _ k).trans ?_
  refine Finset.sum_congr rfl fun r _ => ?_
  simp only [shapeCast_self, relu_apply, addf_apply, rows_dot_apply, spread_rows_apply, as_row_apply]

/-- The output block of a point at column k: the image's result there. -/
theorem point_value (x0 : FVec Ideal S1x32x1280 .bf16) (wt wb : FVec Ideal S1280x1280 .bf16) (b1 : FVec Ideal S1280 .f32)
    (W2 : FVec Ideal S1280x1280 .bf16) (b2 : FVec Ideal S1280 .f32) (W3 : FVec Ideal S1280x1280 .bf16)
    (b3 : FVec Ideal S1280 .f32) (k : Fin 1280) :
    k0_pay2 (F := Ideal) (k0_pay1 (F := Ideal) (k0_pay4 (F := Ideal) (k0_pay3 (F := Ideal) x0 wt wb b1) W2 b2)) W3 b3 (ix3 (0 : Fin 1) (0 : Fin 1) k)
      = Spec.imageOut (fun q c => x0 (ix3 (0 : Fin 1) q c)) (fun c h => wt (ix2 c h)) (fun c h => wb (ix2 c h))
          (fun h => b1 (ix1 h)) (fun h k => W2 (ix2 h k)) (fun k => b2 (ix1 k)) (fun h k => W3 (ix2 h k))
          (fun k => b3 (ix1 k)) k := by
  rw [pay2_apply]
  unfold k0_pay1
  simp only [shapeCast_self, pay4_apply, pay3_apply]
  exact Spec.sum_rows (fun p q => Spec.pairOut (fun q c => x0 (ix3 (0 : Fin 1) q c)) (fun c h => wt (ix2 c h))
    (fun c h => wb (ix2 c h)) (fun h => b1 (ix1 h)) (fun h k => W2 (ix2 h k)) (fun k => b2 (ix1 k))
    (fun h k => W3 (ix2 h k)) (fun k => b3 (ix1 k)) p q k)

end Cert.KernelIdeal.PointMath

end
-- ==== Proof.KernelValue.lean ====
/-
  The kernel's result array.

  Point t of the grid stages image t (rows 32·t … of the first operand, viewed as a [1, 32, 1280] block) and the whole of
  every weight and bias; it writes back block t of the [32, 1, 1280] output, which holds the image's result. The 32
  blocks tile the output, so after the run the output is the specification's result with a unit axis in the middle,
  and the host's final reshape drops that axis. The operands the host converted to a narrower format before the launch
  are, on the extended reals, the arguments themselves.
-/
import proofs.«106280_j48962627174544_1_alg».proof.Proof.KernelPiece
import proofs.«106280_j48962627174544_1_alg».proof.Proof.KernelPoint
import Idealize.ShloMosaic.Lib.StableHlo.Run

set_option maxRecDepth 16384

noncomputable section

namespace Cert.KernelIdeal.ArrayValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The arguments, the staged arrays and the staged blocks, at their literal types -/

abbrev roi (c : Dev nD) : FVec Ideal S32x32x1280 .f32 := m ((c : Thread nD τ).loc main_arg0)
abbrev w1 (c : Dev nD) : FVec Ideal S2560x1280 .f32 := m ((c : Thread nD τ).loc main_arg1)
abbrev b1 (c : Dev nD) : FVec Ideal S1280 .f32 := m ((c : Thread nD τ).loc main_arg2)
abbrev w2 (c : Dev nD) : FVec Ideal S1280x1280 .f32 := m ((c : Thread nD τ).loc main_arg3)
abbrev b2 (c : Dev nD) : FVec Ideal S1280 .f32 := m ((c : Thread nD τ).loc main_arg4)
abbrev w3 (c : Dev nD) : FVec Ideal S1280x1280 .f32 := m ((c : Thread nD τ).loc main_arg5)
abbrev b3 (c : Dev nD) : FVec Ideal S1280 .f32 := m ((c : Thread nD τ).loc main_arg6)

abbrev arr0 (c : Dev nD) : FVec Ideal S32x32x1280 .bf16 := V m c main_v0
abbrev arr1 (c : Dev nD) : FVec Ideal S2560x1280 .bf16 := V m c main_v1
abbrev arr2 (c : Dev nD) : FVec Ideal S1280 .f32 := V m c main_arg2
abbrev arr3 (c : Dev nD) : FVec Ideal S1280x1280 .bf16 := V m c main_v2
abbrev arr4 (c : Dev nD) : FVec Ideal S1280 .f32 := V m c main_arg4
abbrev arr5 (c : Dev nD) : FVec Ideal S1280x1280 .bf16 := V m c main_v3
abbrev arr6 (c : Dev nD) : FVec Ideal S1280 .f32 := V m c main_arg6

abbrev blk0 (c : Dev nD) (t : Fin cfg0.N) : FVec Ideal S1x32x1280 .bf16 := iblk m c 0 t
abbrev blk1 (c : Dev nD) (t : Fin cfg0.N) : FVec Ideal S2560x1280 .bf16 := iblk m c 1 t
abbrev blk2 (c : Dev nD) (t : Fin cfg0.N) : FVec Ideal S1280 .f32 := iblk m c 2 t
abbrev blk3 (c : Dev nD) (t : Fin cfg0.N) : FVec Ideal S1280x1280 .bf16 := iblk m c 3 t
abbrev blk4 (c : Dev nD) (t : Fin cfg0.N) : FVec Ideal S1280 .f32 := iblk m c 4 t
abbrev blk5 (c : Dev nD) (t : Fin cfg0.N) : FVec Ideal S1280x1280 .bf16 := iblk m c 5 t
abbrev blk6 (c : Dev nD) (t : Fin cfg0.N) : FVec Ideal S1280 .f32 := iblk m c 6 t

/-- The image a grid point works on. -/
abbrev img (t : Fin cfg0.N) : Fin 32 := ⟨t.val, by have h := t.isLt; have e : cfg0.N = 32 := N_0; omega⟩

/-! ## The host's conversions before the launch are the identity on the extended reals -/

theorem arr0_eq (c : Dev nD) : arr0 m c = roi m c := by
  show StableHlo.after hostOps0 (fun b => m (c, b)) (Proc.devRef .tc main_v0) = _
  after_results
  rfl
theorem arr1_eq (c : Dev nD) : arr1 m c = w1 m c := by
  show StableHlo.after hostOps0 (fun b => m (c, b)) (Proc.devRef .tc main_v1) = _
  after_results
  rfl
theorem arr3_eq (c : Dev nD) : arr3 m c = w2 m c := by
  show StableHlo.after hostOps0 (fun b => m (c, b)) (Proc.devRef .tc main_v2) = _
  after_results
  rfl
theorem arr5_eq (c : Dev nD) : arr5 m c = w3 m c := by
  show StableHlo.after hostOps0 (fun b => m (c, b)) (Proc.devRef .tc main_v3) = _
  after_results
  rfl
theorem arr2_eq (c : Dev nD) : arr2 m c = b1 m c := V_main_arg2 m c
theorem arr4_eq (c : Dev nD) : arr4 m c = b2 m c := V_main_arg4 m c
theorem arr6_eq (c : Dev nD) : arr6 m c = b3 m c := V_main_arg6 m c

/-! ## The index maps, decided over the grid -/

theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 3) = t.val ∧ win0_7.index t (1 : Fin 3) = 0 ∧ win0_7.index t (2 : Fin 3) = 0 :=
  (by decide +kernel : ∀ t : Fin grid0.N, _)

/-! ## Each staged block read where it lies in its array -/

theorem blk0_apply (c : Dev nD) (t : Fin cfg0.N) (q : Fin 32) (cc : Fin 1280) :
    blk0 m c t (ix3 (0 : Fin 1) q cc) = arr0 m c (ix3 (img t) q cc) := by
  show V m c main_v0 (((cfg0.win 0).blk t).view.emb (ix3 (0 : Fin 1) q cc)) = V m c main_v0 (ix3 (img t) q cc)
  refine congrArg _ (funext fun a => Fin.ext ?_)
  obtain ⟨e0, e1, e2, -⟩ := idx_facts t
  match a with
  | ⟨0, _⟩ => show win0_0.index t (0 : Fin 3) * 1 + 1 * 0 = t.val; omega
  | ⟨1, _⟩ => show win0_0.index t (1 : Fin 3) * 32 + 1 * q.val = q.val; omega
  | ⟨2, _⟩ => show win0_0.index t (2 : Fin 3) * 1280 + 1 * cc.val = cc.val; omega

theorem blk1_eq (c : Dev nD) (t : Fin cfg0.N) : blk1 m c t = arr1 m c := by
  funext j
  show V m c main_v1 (((cfg0.win 1).blk t).view.emb j) = V m c main_v1 j
  refine congrArg _ (funext fun a => Fin.ext ?_)
  obtain ⟨-, -, -, e0, e1, -⟩ := idx_facts t
  match a with
  | ⟨0, _⟩ => show win0_1.index t (0 : Fin 2) * 2560 + 1 * (j 0).val = (j 0).val; omega
  | ⟨1, _⟩ => show win0_1.index t (1 : Fin 2) * 1280 + 1 * (j 1).val = (j 1).val; omega

theorem blk2_eq (c : Dev nD) (t : Fin cfg0.N) : blk2 m c t = arr2 m c := by
  funext j
  show V m c main_arg2 (((cfg0.win 2).blk t).view.emb j) = V m c main_arg2 j
  refine congrArg _ (funext fun a => Fin.ext ?_)
  obtain ⟨-, -, -, -, -, e0, -⟩ := idx_facts t
  match a with
  | ⟨0, _⟩ => show win0_2.index t (0 : Fin 1) * 1280 + 1 * (j 0).val = (j 0).val; omega

theorem blk3_eq (c : Dev nD) (t : Fin cfg0.N) : blk3 m c t = arr3 m c := by
  funext j
  show V m c main_v2 (((cfg0.win 3).blk t).view.emb j) = V m c main_v2 j
  refine congrArg _ (funext fun a => Fin.ext ?_)
  obtain ⟨-, -, -, -, -, -, e0, e1, -⟩ := idx_facts t
  match a with
  | ⟨0, _⟩ => show win0_3.index t (0 : Fin 2) * 1280 + 1 * (j 0).val = (j 0).val; omega
  | ⟨1, _⟩ => show win0_3.index t (1 : Fin 2) * 1280 + 1 * (j 1).val = (j 1).val; omega

theorem blk4_eq (c : Dev nD) (t : Fin cfg0.N) : blk4 m c t = arr4 m c := by
  funext j
  show V m c main_arg4 (((cfg0.win 4).blk t).view.emb j) = V m c main_arg4 j
  refine congrArg _ (funext fun a => Fin.ext ?_)
  obtain ⟨-, -, -, -, -, -, -, -, e0, -⟩ := idx_facts t
  match a with
  | ⟨0, _⟩ => show win0_4.index t (0 : Fin 1) * 1280 + 1 * (j 0).val = (j 0).val; omega

theorem blk5_eq (c : Dev nD) (t : Fin cfg0.N) : blk5 m c t = arr5 m c := by
  funext j
  show V m c main_v3 (((cfg0.win 5).blk t).view.emb j) = V m c main_v3 j
  refine congrArg _ (funext fun a => Fin.ext ?_)
  obtain ⟨-, -, -, -, -, -, -, -, -, e0, e1, -⟩ := idx_facts t
  match a with
  | ⟨0, _⟩ => show win0_5.index t (0 : Fin 2) * 1280 + 1 * (j 0).val = (j 0).val; omega
  | ⟨1, _⟩ => show win0_5.index t (1 : Fin 2) * 1280 + 1 * (j 1).val = (j 1).val; omega

theorem blk6_eq (c : Dev nD) (t : Fin cfg0.N) : blk6 m c t = arr6 m c := by
  funext j
  show V m c main_arg6 (((cfg0.win 6).blk t).view.emb j) = V m c main_arg6 j
  refine congrArg _ (funext fun a => Fin.ext ?_)
  obtain ⟨-, -, -, -, -, -, -, -, -, -, -, e0, -⟩ := idx_facts t
  match a with
  | ⟨0, _⟩ => show win0_6.index t (0 : Fin 1) * 1280 + 1 * (j 0).val = (j 0).val; omega

/-- The upper half of a 2560-row block, entry (c, h): the block's row c. -/
theorem top_apply (x : FVec Ideal S2560x1280 .bf16) (cc h : Fin 1280) :
    PointValue.topHalf (F := Ideal) x (ix2 cc h) = x (ix2 (Spec.topRow cc) h) := by
  unfold PointValue.topHalf
  show x _ = x _
  refine congrArg x (funext fun a => Fin.ext ?_)
  match a with
  | ⟨0, _⟩ => show 0 + 1 * cc.val = cc.val; omega
  | ⟨1, _⟩ => show 0 + 1 * h.val = h.val; omega

/-- The lower half, entry (c, h): the block's row 1280 + c. -/
theorem bot_apply (x : FVec Ideal S2560x1280 .bf16) (cc h : Fin 1280) :
    PointValue.botHalf (F := Ideal) x (ix2 cc h) = x (ix2 (Spec.botRow cc) h) := by
  unfold PointValue.botHalf
  show x _ = x _
  refine congrArg x (funext fun a => Fin.ext ?_)
  match a with
  | ⟨0, _⟩ => show 1280 + 1 * cc.val = 1280 + cc.val; omega
  | ⟨1, _⟩ => show 0 + 1 * h.val = h.val; omega

/-! ## What a point leaves, and the output array -/

/-- The output array [32, 1, 1280] after the run: the specification's result with a unit axis in the middle. -/
def outArr (c : Dev nD) : FVec Ideal S32x1x1280 .f32 := fun i =>
  Spec.result (roi m c) (w1 m c) (b1 m c) (w2 m c) (b2 m c) (w3 m c) (b3 m c)
    (ix2 (⟨(i 0).val, (i 0).isLt⟩ : Fin 32) (⟨(i 2).val, (i 2).isLt⟩ : Fin 1280))

/-- The output block of point t is the payloads composed on the staged blocks. -/
theorem outsAt_eq (c : Dev nD) (t : Fin cfg0.N) :
    outsAt0 m c t = k0_pay2 (F := Ideal) (k0_pay1 (F := Ideal) (k0_pay4 (F := Ideal) (k0_pay3 (F := Ideal) (blk0 m c t)
      (PointValue.topHalf (F := Ideal) (blk1 m c t)) (PointValue.botHalf (F := Ideal) (blk1 m c t)) (blk2 m c t)) (blk3 m c t) (blk4 m c t)))
      (blk5 m c t) (blk6 m c t) := by
  unfold outsAt0
  exact PointValue.out_piece c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
    (iblk m c 0 t) (iblk m c 1 t) (iblk m c 2 t) (iblk m c 3 t) (iblk m c 4 t) (iblk m c 5 t) (iblk m c 6 t)

/-- At column k it is image t's result. -/
theorem outsAt_apply (c : Dev nD) (t : Fin cfg0.N) (k : Fin 1280) :
    outsAt0 m c t (ix3 (0 : Fin 1) (0 : Fin 1) k)
      = Spec.result (roi m c) (w1 m c) (b1 m c) (w2 m c) (b2 m c) (w3 m c) (b3 m c) (ix2 (img t) k) := by
  rw [outsAt_eq, PointMath.point_value]
  unfold Spec.result
  simp only [blk0_apply, top_apply, bot_apply, blk1_eq, blk2_eq, blk3_eq, blk4_eq, blk5_eq, blk6_eq, arr0_eq, arr1_eq,
    arr2_eq, arr3_eq, arr4_eq, arr5_eq, arr6_eq]
  rfl

/-- The same as a function of the block's index: only the column matters. -/
theorem outsAt_fun (c : Dev nD) (t : Fin cfg0.N) :
    outsAt0 m c t = fun y : S1x1x1280.Idx =>
      Spec.result (roi m c) (w1 m c) (b1 m c) (w2 m c) (b2 m c) (w3 m c) (b3 m c)
        (ix2 (img t) (⟨(y 2).val, (y 2).isLt⟩ : Fin 1280)) := by
  funext y
  obtain ⟨u, v, k, rfl⟩ : ∃ (u v : Fin 1) (k : Fin 1280), y = ix3 u v k := ⟨y 0, y 1, y 2, eq_ix3 y⟩
  obtain rfl : u = 0 := Subsingleton.elim _ _
  obtain rfl : v = 0 := Subsingleton.elim _ _
  exact outsAt_apply m c t k

/-- WHAT POINT t WRITES BACK is block t of the output array. -/
theorem flushed_eq (c : Dev nD) (t : Fin cfg0.N) :
    (dats m 0 c).flushed 7 t = ((cfg0.win 7).blk t).view.read (Elt Ideal) (outArr m c) := by
  show (cfg0.win 7).cut (grid0.coords t) ((dats m 0 c).after 7 t) = _
  rw [after0_7, outsAt_fun]
  funext y
  show Spec.result (roi m c) (w1 m c) (b1 m c) (w2 m c) (b2 m c) (w3 m c) (b3 m c) (ix2 (img t) (⟨(y 2).val, (y 2).isLt⟩ : Fin 1280))
    = outArr m c (((cfg0.win 7).blk t).view.emb y)
  unfold outArr
  refine congrArg _ (funext fun a => Fin.ext ?_)
  obtain ⟨-, -, -, -, -, -, -, -, -, -, -, -, e0, e1, e2⟩ := idx_facts t
  have hy : (y 0).val < 1 := (y 0).isLt
  match a with
  | ⟨0, _⟩ => show t.val = win0_7.index t (0 : Fin 3) * 1 + 1 * (y 0).val; omega
  | ⟨1, _⟩ => show (y 2).val = win0_7.index t (2 : Fin 3) * 1280 + 1 * (y 2).val; omega

/-- An entry of the output is in point t's block iff each coordinate is in the block's range. -/
theorem mem_blk (t : Fin cfg0.N) (i : S32x1x1280.Idx) :
    i ∈ ((cfg0.win 7).blk t).view.set ↔ ∀ a : Fin 3, win0_7.index t a * S1x1x1280.size a ≤ (i a).val
      ∧ (i a).val < win0_7.index t a * S1x1x1280.size a + S1x1x1280.size a := by
  show i ∈ ((View.whole main_v4).slice (win0_7.rect t)).set ↔ _
  rw [View.set_slice_whole, Rect.mem_set_unit]
  exact Iff.rfl

/-- THE OUTPUT ARRAY after the run: row b is written by point b, and the 32 points cover it. -/
theorem final (c : Dev nD) : (dats m 0 c).arrAt 7 cfg0.N = outArr m c :=
  (dats m 0 c).arrAt_eq_of_cover 7 (outArr m c) (fun t _ => flushed_eq m c t) fun i => by
    have hi0 : (i 0).val < 32 := (i 0).isLt
    have hi1 : (i 1).val < 1 := (i 1).isLt
    have hi2 : (i 2).val < 1280 := (i 2).isLt
    have hN : cfg0.N = 32 := N_0
    obtain ⟨t₀, ht⟩ : ∃ t₀ : Fin cfg0.N, t₀.val = (i 0).val := ⟨⟨(i 0).val, by omega⟩, rfl⟩
    refine ⟨t₀, flush0_7 t₀, ?_⟩
    rw [mem_blk]
    obtain ⟨-, -, -, -, -, -, -, -, -, -, -, -, e0, e1, e2⟩ := idx_facts t₀
    intro a
    match a with
    | ⟨0, _⟩ => show win0_7.index t₀ (0 : Fin 3) * 1 ≤ (i 0).val ∧ (i 0).val < win0_7.index t₀ (0 : Fin 3) * 1 + 1; omega
    | ⟨1, _⟩ => show win0_7.index t₀ (1 : Fin 3) * 1 ≤ (i 1).val ∧ (i 1).val < win0_7.index t₀ (1 : Fin 3) * 1 + 1; omega
    | ⟨2, _⟩ => show win0_7.index t₀ (2 : Fin 3) * 1280 ≤ (i 2).val ∧ (i 2).val < win0_7.index t₀ (2 : Fin 3) * 1280 + 1280; omega

/-! ## The host's reshape after the launch, and the run -/

/-- Dropping the unit axis of the output array gives the specification's result. -/
theorem drop_unit (c : Dev nD) :
    shapeCast S32x1280 (outArr m c) Facts₀.shapeCasts_S32x1x1280_S32x1280
      = Spec.result (roi m c) (w1 m c) (b1 m c) (w2 m c) (b2 m c) (w3 m c) (b3 m c) := by
  funext j
  obtain ⟨b, k, rfl⟩ : ∃ (b : Fin 32) (k : Fin 1280), j = ix2 b k := ⟨j 0, j 1, eq_ix2 j⟩
  refine (shapeCast_apply (outArr m c) _ (ix2 b k) (ix3 b (0 : Fin 1) k) (by
    rw [Shape.rowMajor_val_three, Shape.rowMajor_val_two]
    show (b.val * 1 + (0 : Nat)) * 1280 + k.val = b.val * 1280 + k.val
    omega)).trans ?_
  rfl

/-- The result buffer after the host's last line. -/
theorem tail_eq (c : Dev nD) :
    Pipeline.afterTail₀ cfgs (dats m) 0 (V0 m) [hostOps1] c main_v5
      = Spec.result (roi m c) (w1 m c) (b1 m c) (w2 m c) (b2 m c) (w3 m c) (b3 m c) := by
  unfold Pipeline.afterTail₀
  show StableHlo.after hostOps1 _ (Proc.devRef .tc main_v5) = _
  after_results
  have e : Pipeline.withArrays spec0 c (V0 m c) (fun w => (dats m 0 c).arrAt w cfg0.N)
      (Proc.devRef .tc (Pipeline.arrRef spec0 7)) = outArr m c :=
    (Pipeline.withArrays_arr spec0 launch0.win.arr_inj c _ _ 7).trans (final m c)
  show (fun i => shapeCast S32x1280 (Pipeline.withArrays spec0 c (V0 m c) (fun w => (dats m 0 c).arrAt w cfg0.N)
      (Proc.devRef .tc (Pipeline.arrRef spec0 7))) Facts₀.shapeCasts_S32x1x1280_S32x1280 i) = _
  rw [e]
  exact drop_unit m c

/-- THE RUN: every weakly fair execution ends with the result buffer at the specification's result of the arguments,
    and the arguments as they were. -/
theorem run : θ_run defs (onTc (τ := τ) (main (F := Ideal))) ⟨m, fun _ => 0, ρ⟩ (fun r => ∀ c : Dev nD,
      r.2.mem ((c.tc : Thread nD τ).loc main_v5)
        = Spec.result (roi m c) (w1 m c) (b1 m c) (w2 m c) (b2 m c) (w3 m c) (b3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c)))⟩)
    (run_main m ρ)

end Cert.KernelIdeal.ArrayValue

end
-- ==== Proof.LibPairSum.lean ====
/-
  A sum over the two middle axes of a rank-4 array, read at an entry.

  The host's reduction of an [a, m, n, d] array over its axes 1 and 2, started from `init`, is at (i, k) the initial
  value plus the double sum Σ_p Σ_q x (i, p, q, k) on the extended reals: the entries that reduce to (i, k) are exactly
  those whose outer coordinates are i and k, and they are in bijection with the pairs (p, q). Generic in the four
  extents.
-/
import Idealize.ShloMosaic.PureOps.Ideal.Laws
import Idealize.ShloMosaic.Lib.ValueIdx

namespace Idealize.ShloMosaic.PairSum

open Idealize.ShloMosaic Idealize.ShloMosaic.ValueIdx

/-- The entries of an [a, m, n, d] array that keep (i, k) when axes 1 and 2 are dropped, summed: the double sum over
    the two dropped coordinates. -/
theorem hostReduceAdd_mid_apply {a m n d : Nat}
    (h : (⟨4, ![a, m, n, d]⟩ : Shape).ReducesTo [1, 2] ⟨2, ![a, d]⟩) (x : (⟨4, ![a, m, n, d]⟩ : Shape).Idx → EReal)
    (init : EReal) (i : Fin a) (k : Fin d) :
    Ideal.hostReduceAdd h x init (ix2 i k) = init + ∑ p : Fin m, ∑ q : Fin n, x (ix4 i p q k) := by
  unfold Ideal.hostReduceAdd
  refine congrArg (init + ·) ?_
  rw [← Finset.sum_product']
  refine Finset.sum_bij' (fun j _ => (j 1, j 2)) (fun pq _ => ix4 i pq.1 pq.2 k) ?_ ?_ ?_ ?_ ?_
  · intro j _; exact Finset.mem_product.mpr ⟨Finset.mem_univ _, Finset.mem_univ _⟩
  · intro pq _
    refine Finset.mem_filter.mpr ⟨Finset.mem_univ _, ?_⟩
    funext b
    match b with
    | ⟨0, _⟩ => rfl
    | ⟨1, _⟩ => rfl
  · intro j hj
    have hd := (Finset.mem_filter.mp hj).2
    have h0 : (j 0).val = i.val := congrArg Fin.val (congrFun hd 0)
    have h3 : (j 3).val = k.val := congrArg Fin.val (congrFun hd 1)
    funext b
    apply Fin.ext
    match b with
    | ⟨0, _⟩ => exact h0.symm
    | ⟨1, _⟩ => rfl
    | ⟨2, _⟩ => rfl
    | ⟨3, _⟩ => exact h3.symm
  · intro pq _; rfl
  · intro j hj
    have hd := (Finset.mem_filter.mp hj).2
    have h0 : (j 0).val = i.val := congrArg Fin.val (congrFun hd 0)
    have h3 : (j 3).val = k.val := congrArg Fin.val (congrFun hd 1)
    refine congrArg x ?_
    funext b
    apply Fin.ext
    match b with
    | ⟨0, _⟩ => exact h0
    | ⟨1, _⟩ => rfl
    | ⟨2, _⟩ => rfl
    | ⟨3, _⟩ => exact h3

end Idealize.ShloMosaic.PairSum
-- ==== Proof.RefValue.lean ====
/-
  The reference computes the specification.

  Its result is read one operation at a time: the two first-layer products of every box with the upper and the lower
  half of the first weight, spread over the pair axes and added with the bias, clipped at zero; two further layers on
  the last axis; and the sum over the two pair axes, started from zero. At the entry (b, k) that is the image's
  result of the specification, the host's initial zero dropping out.
-/
import proofs.«106280_j48962627174544_1_alg».proof.Proof.Gen.ReferenceIdeal.Read
import proofs.«106280_j48962627174544_1_alg».proof.Proof.Spec
import proofs.«106280_j48962627174544_1_alg».proof.Proof.LibPairSum
import Idealize.ShloMosaic.Lib.ValueIdx
import Idealize.ShloMosaic.Lib.IdealHost
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx

variable (x0 : (⟨S32x32x1280, .f32⟩ : BufTy).Contents (Elt Ideal)) (x1 : (⟨S2560x1280, .f32⟩ : BufTy).Contents (Elt Ideal)) (x2 : (⟨S1280, .f32⟩ : BufTy).Contents (Elt Ideal))
  (x3 : (⟨S1280x1280, .f32⟩ : BufTy).Contents (Elt Ideal)) (x4 : (⟨S1280, .f32⟩ : BufTy).Contents (Elt Ideal)) (x5 : (⟨S1280x1280, .f32⟩ : BufTy).Contents (Elt Ideal)) (x6 : (⟨S1280, .f32⟩ : BufTy).Contents (Elt Ideal))

/-- Box q of image b through the upper half of the first weight. -/
theorem v1_apply (b q : Fin 32) (h : Fin 1280) :
    val_main_v1 (F := Ideal) x0 x1 (ix3 b q h)
      = Spec.proj (fun q c => x0 (ix3 b q c)) (fun c h => x1 (ix2 (Spec.topRow c) h)) q h := by
  rw [val_main_v1_apply]
  unfold Spec.proj
  refine Finset.sum_congr rfl fun c _ => ?_
  rw [val_main_v0_apply]
  have e1 : lidx_main_v1 (ix3 b q h) c = ix3 b q c :=
    funext fun a => Fin.ext (by match a with | ⟨0, _⟩ => rfl | ⟨1, _⟩ => rfl | ⟨2, _⟩ => rfl)
  have e2 : idx_main_v0 (ridx_main_v1 (ix3 b q h) c) = ix2 (Spec.topRow c) h :=
    funext fun a => Fin.ext (by match a with | ⟨0, _⟩ => rfl | ⟨1, _⟩ => rfl)
  rw [e1, e2]

/-- Box p of image b through the lower half of the first weight. -/
theorem v3_apply (b p : Fin 32) (h : Fin 1280) :
    val_main_v3 (F := Ideal) x0 x1 (ix3 b p h)
      = Spec.proj (fun q c => x0 (ix3 b q c)) (fun c h => x1 (ix2 (Spec.botRow c) h)) p h := by
  rw [val_main_v3_apply]
  unfold Spec.proj
  refine Finset.sum_congr rfl fun c _ => ?_
  rw [val_main_v2_apply]
  have e1 : lidx_main_v3 (ix3 b p h) c = ix3 b p c :=
    funext fun a => Fin.ext (by match a with | ⟨0, _⟩ => rfl | ⟨1, _⟩ => rfl | ⟨2, _⟩ => rfl)
  have e2 : idx_main_v2 (ridx_main_v3 (ix3 b p h) c) = ix2 (Spec.botRow c) h :=
    funext fun a => Fin.ext (by match a with | ⟨0, _⟩ => rfl | ⟨1, _⟩ => rfl)
  rw [e1, e2]

/-- The three clips compare with the zero word, which is 0. -/
theorem zero0 (i : S32x32x32x1280.Idx) : val_main_call0_v0 (F := Ideal) i = (0 : EReal) := by
  rw [val_main_call0_v0_apply, val_main_call0_cst_apply]; exact Ideal.ofBits_zero_f32
theorem zero1 (i : S32x32x32x1280.Idx) : val_main_call1_v0 (F := Ideal) i = (0 : EReal) := by
  rw [val_main_call1_v0_apply, val_main_call1_cst_apply]; exact Ideal.ofBits_zero_f32
theorem zero2 (i : S32x32x32x1280.Idx) : val_main_call2_v0 (F := Ideal) i = (0 : EReal) := by
  rw [val_main_call2_v0_apply, val_main_call2_cst_apply]; exact Ideal.ofBits_zero_f32

/-- The first hidden row of the pair (p, q) of image b. -/
theorem v12_apply (b p q : Fin 32) (h : Fin 1280) :
    val_main_v12 (F := Ideal) x0 x1 x2 (ix4 b p q h)
      = Spec.pre (fun q c => x0 (ix3 b q c)) (fun c h => x1 (ix2 (Spec.topRow c) h))
          (fun c h => x1 (ix2 (Spec.botRow c) h)) (fun h => x2 (ix1 h)) p q h := by
  have e6 : idx_main_v4 (idx_main_v6 (ix4 b p q h)) = ix3 b q h :=
    funext fun a => Fin.ext (by match a with | ⟨0, _⟩ => rfl | ⟨1, _⟩ => rfl | ⟨2, _⟩ => rfl)
  have e7 : idx_main_v5 (idx_main_v7 (ix4 b p q h)) = ix3 b p h :=
    funext fun a => Fin.ext (by match a with | ⟨0, _⟩ => rfl | ⟨1, _⟩ => rfl | ⟨2, _⟩ => rfl)
  have e10 : idx_main_v9 (idx_main_v10 (ix4 b p q h)) = ix1 h :=
    funext fun a => Fin.ext (by match a with | ⟨0, _⟩ => rfl)
  rw [val_main_v12_apply, val_main_v11_apply, val_main_v8_apply, val_main_v6_apply, val_main_v4_apply, e6,
    val_main_v7_apply, val_main_v5_apply, e7, val_main_v10_apply, val_main_v9_apply, e10, zero0, v1_apply, v3_apply]
  rfl

/-- The second hidden row of the pair. -/
theorem v17_apply (b p q : Fin 32) (k : Fin 1280) :
    val_main_v17 (F := Ideal) x0 x1 x2 x3 x4 (ix4 b p q k)
      = Spec.layer (Spec.pre (fun q c => x0 (ix3 b q c)) (fun c h => x1 (ix2 (Spec.topRow c) h))
          (fun c h => x1 (ix2 (Spec.botRow c) h)) (fun h => x2 (ix1 h)) p q) (fun h k => x3 (ix2 h k)) (fun k => x4 (ix1 k)) k := by
  have e15 : idx_main_v14 (idx_main_v15 (ix4 b p q k)) = ix1 k :=
    funext fun a => Fin.ext (by match a with | ⟨0, _⟩ => rfl)
  have el : ∀ h : Fin 1280, lidx_main_v13 (ix4 b p q k) h = ix4 b p q h := fun h =>
    funext fun a => Fin.ext (by match a with | ⟨0, _⟩ => rfl | ⟨1, _⟩ => rfl | ⟨2, _⟩ => rfl | ⟨3, _⟩ => rfl)
  have er : ∀ h : Fin 1280, ridx_main_v13 (ix4 b p q k) h = ix2 h k := fun h =>
    funext fun a => Fin.ext (by match a with | ⟨0, _⟩ => rfl | ⟨1, _⟩ => rfl)
  rw [val_main_v17_apply, val_main_v16_apply, val_main_v13_apply, val_main_v15_apply, val_main_v14_apply, e15, zero1]
  simp only [el, er, v12_apply]
  rfl

/-- The last hidden row of the pair. -/
theorem v22_apply (b p q : Fin 32) (k : Fin 1280) :
    val_main_v22 (F := Ideal) x0 x1 x2 x3 x4 x5 x6 (ix4 b p q k)
      = Spec.pairOut (fun q c => x0 (ix3 b q c)) (fun c h => x1 (ix2 (Spec.topRow c) h))
          (fun c h => x1 (ix2 (Spec.botRow c) h)) (fun h => x2 (ix1 h)) (fun h k => x3 (ix2 h k)) (fun k => x4 (ix1 k))
          (fun h k => x5 (ix2 h k)) (fun k => x6 (ix1 k)) p q k := by
  have e20 : idx_main_v19 (idx_main_v20 (ix4 b p q k)) = ix1 k :=
    funext fun a => Fin.ext (by match a with | ⟨0, _⟩ => rfl)
  have el : ∀ h : Fin 1280, lidx_main_v18 (ix4 b p q k) h = ix4 b p q h := fun h =>
    funext fun a => Fin.ext (by match a with | ⟨0, _⟩ => rfl | ⟨1, _⟩ => rfl | ⟨2, _⟩ => rfl | ⟨3, _⟩ => rfl)
  have er : ∀ h : Fin 1280, ridx_main_v18 (ix4 b p q k) h = ix2 h k := fun h =>
    funext fun a => Fin.ext (by match a with | ⟨0, _⟩ => rfl | ⟨1, _⟩ => rfl)
  rw [val_main_v22_apply, val_main_v21_apply, val_main_v18_apply, val_main_v20_apply, val_main_v19_apply, e20, zero2]
  simp only [el, er, v17_apply]
  rfl

/-- The reference's result array is the specification's. -/
theorem result_eq :
    val_main_v23 (F := Ideal) x0 x1 x2 x3 x4 x5 x6 = Spec.result x0 x1 x2 x3 x4 x5 x6 := by
  funext j
  obtain ⟨b, k, rfl⟩ : ∃ (b : Fin 32) (k : Fin 1280), j = ix2 b k := ⟨j 0, j 1, eq_ix2 j⟩
  unfold val_main_v23
  rw [hostReduceAdd_apply, PairSum.hostReduceAdd_mid_apply]
  simp only [v22_apply]
  rw [val_main_cst_apply]
  show Ideal.ofBits .f32 0x00000000#32 + _ = _
  rw [Ideal.ofBits_zero_f32, zero_add]
  rfl

end Cert.ReferenceIdeal.RefValue

end
-- ==== Proof.lean ====
/-
  The relational box encoder: for every image b and every ordered pair (p, q) of its 32 boxes, the concatenation
  (x_q, x_p) goes through three affine layers with a clip at zero after each, and the image's result is the sum of
  the last hidden row over all 1024 pairs.

  The first layer on a concatenation splits: cat (x_q, x_p) · W1 = x_q · W1[:1280] + x_p · W1[1280:], so both programs
  form the two 32 × 1280 products once per image and add them pair by pair. The kernel works one image per grid point,
  on operands the host first narrowed to a 16-bit format, keeps the 1024 pair rows in a scratch array between the
  layers, and sums the last array down its rows; the reference keeps a [32, 32, 32, 1280] array and sums over the two
  pair axes. On the extended reals a change of float format is the identity, a matrix product into the zero array and
  the host's dot product are the same finite sum, and a finite sum may be taken in any order: so both results are the
  one function `Cert.Spec.result` of the seven arguments, entry by entry. No step distributes, cancels or moves a
  factor across a sum, so the finiteness of the inputs is never used.

  frame_Kernel, frame_KernelIdeal: the launch's run, whole.
  frame_ReferenceIdeal: the reference's run with its result dropped.
  preserves_Kernel_KernelIdeal: the idealized kernel is the kernel's own text read on the extended reals; nothing to show.
  algebraic_KernelIdeal_ReferenceIdeal: the kernel's run ends at `Spec.result` of its arguments (each grid point writes
  image t's result into block t of the output, the blocks tile it, the host drops the unit axis), the reference's
  run ends at `Spec.result` of its arguments (read operation by operation), and the arguments agree.
-/
import proofs.«106280_j48962627174544_1_alg».proof.Defs
import proofs.«106280_j48962627174544_1_alg».proof.Proof.Gen.Kernel
import proofs.«106280_j48962627174544_1_alg».proof.Proof.Gen.Kernel.Skeleton
import proofs.«106280_j48962627174544_1_alg».proof.Proof.Gen.Kernel.Launch
import proofs.«106280_j48962627174544_1_alg».proof.Proof.Gen.Kernel.Points
import proofs.«106280_j48962627174544_1_alg».proof.Proof.Gen.Kernel.Frame
import proofs.«106280_j48962627174544_1_alg».proof.Proof.Gen.KernelIdeal
import proofs.«106280_j48962627174544_1_alg».proof.Proof.Gen.KernelIdeal.Skeleton
import proofs.«106280_j48962627174544_1_alg».proof.Proof.Gen.KernelIdeal.Launch
import proofs.«106280_j48962627174544_1_alg».proof.Proof.Gen.KernelIdeal.Points
import proofs.«106280_j48962627174544_1_alg».proof.Proof.Gen.KernelIdeal.Frame
import proofs.«106280_j48962627174544_1_alg».proof.Proof.Gen.ReferenceIdeal
import proofs.«106280_j48962627174544_1_alg».proof.Proof.Gen.ReferenceIdeal.Run
import proofs.«106280_j48962627174544_1_alg».proof.Proof.Gen.ReferenceIdeal.Read
import proofs.«106280_j48962627174544_1_alg».proof.Proof.Gen.Pre_finite_inputs
import proofs.«106280_j48962627174544_1_alg».proof.Proof.KernelValue
import proofs.«106280_j48962627174544_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end at the specification's result of their own arguments, and the arguments agree. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.result_eq,
    (hagree c).1, (hagree c).2.1, (hagree c).2.2.1, (hagree c).2.2.2.1, (hagree c).2.2.2.2.1,
    (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
